-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S8192 : Shape := ⟨1, ![8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x8192 .f32) (main_arg1 : FVec F S8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S16384x8192 : Shape := ⟨2, ![16384, 8192]⟩
abbrev S8192 : Shape := ⟨1, ![8192]⟩
abbrev S1x8192 : Shape := ⟨2, ![1, 8192]⟩
abbrev S384x8192 : Shape := ⟨2, ![384, 8192]⟩

abbrev nBuf : Space → Nat
  | .hbm => 4
  | .vmem => 5
  | .smem => 0
  | _ => 0

abbrev bufTy : (tb : Table) → Fin (tcTables nBuf tb) → BufTy
  | .hbm, ⟨0, _⟩ => ⟨S16384x8192, .f32⟩
  | .hbm, ⟨1, _⟩ => ⟨S8192, .f32⟩
  | .hbm, ⟨2, _⟩ => ⟨S1x8192, .f32⟩
  | .hbm, ⟨3, _⟩ => ⟨S16384x8192, .f32⟩
  | .local _ .vmem, ⟨0, _⟩ => ⟨S384x8192, .f32⟩
  | .local _ .vmem, ⟨1, _⟩ => ⟨S384x8192, .f32⟩
  | .local _ .vmem, ⟨2, _⟩ => ⟨S1x8192, .f32⟩
  | .local _ .vmem, ⟨3, _⟩ => ⟨S384x8192, .f32⟩
  | .local _ .vmem, ⟨4, _⟩ => ⟨S384x8192, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S384x8192_S384x8192_0_0 : ∀ a, (![0, 0] : Fin 2 → Nat) a + S384x8192.size a ≤ S384x8192.size a
  h_S384x8192 : 0 < S384x8192.numel
  broadcasts_S1x8192_S384x8192 : S1x8192.Broadcasts S384x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x8192.size a < S16384x8192.size a
  hwx0_0 : ∀ i : grid0.Coords, EltTy.bits .f32 = 32 ∨ (Rect.unit (s := S16384x8192) (fun a => cc0_transform_0 i a * S384x8192.size a) (fun a => (Pipeline.Clip.of (cc0_transform_0 i a) (S384x8192.size a) (S16384x8192.size a)).extent (S384x8192.size a)) fun a => Pipeline.Clip.inb (Pipeline.Clip.ok_of (hstart0_0 i a))).WholeWords (EltTy.packing .f32)
  hwxs0_0 : ∀ i : grid0.Coords, EltTy.bits .f32 = 32 ∨ (Rect.unit (s := S384x8192) (fun _ => 0) (fun a => (Pipeline.Clip.of (cc0_transform_0 i a) (S384x8192.size a) (S16384x8192.size a)).extent (S384x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S384x8192.size a < S16384x8192.size a
  hwx0_2 : ∀ i : grid0.Coords, EltTy.bits .f32 = 32 ∨ (Rect.unit (s := S16384x8192) (fun a => cc0_transform_2 i a * S384x8192.size a) (fun a => (Pipeline.Clip.of (cc0_transform_2 i a) (S384x8192.size a) (S16384x8192.size a)).extent (S384x8192.size a)) fun a => Pipeline.Clip.inb (Pipeline.Clip.ok_of (hstart0_2 i a))).WholeWords (EltTy.packing .f32)
  hwxs0_2 : ∀ i : grid0.Coords, EltTy.bits .f32 = 32 ∨ (Rect.unit (s := S384x8192) (fun _ => 0) (fun a => (Pipeline.Clip.of (cc0_transform_2 i a) (S384x8192.size a) (S16384x8192.size a)).extent (S384x8192.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_arg0) S384x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S384x8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S8192 : Shape := ⟨1, ![8192]⟩
abbrev S_ : Shape := ⟨0, ![]⟩
abbrev S1x8192 : Shape := ⟨2, ![1, 8192]⟩

abbrev nBuf : Space → Nat
  | .hbm => 13
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)

variable [Facts₀]

class Facts : Prop extends Facts₀ where

variable [Facts]
-- ==== Proof.Scaled.lean ====
/-
  The function both programs compute, stated once over the argument arrays and for every reading of the
  floats: entry (r, k) of the result is x(r, k) times the k-th diagonal entry clamped to [lo, hi], where the
  clamp of v is min(hi, max(lo, v)) and lo, hi are the two binary32 words nearest -0.95 and 0.95. No
  algebraic law is involved: the two programs apply the same three scalar operations, in the same order, to
  the same entries, so the function below is the whole specification.
-/
import Idealize.ShloMosaic.Lib.ValueIdx

noncomputable section

namespace Cert.DiagScale

open Idealize.ShloMosaic

variable {F : FTy → Type} [FloatOps F]

/-- The array: 16384 rows of 8192 entries. -/
abbrev Arr : Shape := ⟨2, ![16384, 8192]⟩
/-- The diagonal: 8192 entries. -/
abbrev Dg : Shape := ⟨1, ![8192]⟩

/-- The diagonal index under column `k`. -/
abbrev dgIdx (k : Fin 8192) : Dg.Idx := fun a => match a with
  | ⟨0, _⟩ => k

/-- The column of an array index, as a diagonal index. -/
abbrev colOf (i : Arr.Idx) : Dg.Idx := dgIdx ⟨(i 1).val, (i 1).isLt⟩

/-- A value clamped to [lo, hi]: the smaller of hi and (the larger of lo and the value). -/
def clamp (v : F .f32) : F .f32 :=
  FloatOps.minimumf (FloatOps.ofBits .f32 0x3F733333#32) (FloatOps.maximumf (FloatOps.ofBits .f32 0xBF733333#32) v)

/-- The scaled array: each entry of `x` times the clamped diagonal entry of its column. -/
def scaled (x : Arr.Idx → F .f32) (d : Dg.Idx → F .f32) : Arr.Idx → F .f32 :=
  fun i => FloatOps.mulf (x i) (clamp (d (colOf i)))

theorem scaled_apply (x : Arr.Idx → F .f32) (d : Dg.Idx → F .f32) (i : Arr.Idx) :
    scaled x d i = FloatOps.mulf (x i) (clamp (d (colOf i))) := rfl

end Cert.DiagScale

end
-- ==== Proof.KernelPayload.lean ====
/-
  The body's one stored value, read at an entry. The body loads the one-row block of the diagonal and the
  384-row block of x, clamps the row entry by entry, repeats it down the 384 rows and multiplies: entry (p, q)
  of what it stores is the x block's entry (p, q) times the clamped row entry q, whatever p. The value at
  (p, q) depends on the x block at (p, q) alone, so rows of the block that hold no part of the array do not
  reach the rows that do.
-/
import proofs.«423454_j73581379715571_3_alg».proof.Proof.Gen.Kernel.Skeleton
import proofs.«423454_j73581379715571_3_alg».proof.Proof.Scaled
import Idealize.ShloMosaic.Lib.Pipeline.Value

noncomputable section

namespace Cert.Kernel.Payload

open Cert.Kernel Cert.Kernel.Gen Idealize.ShloMosaic Idealize.ShloMosaic.ValueIdx Cert.DiagScale

variable {F : FTy → Type} [FloatOps F]

/-- Entry (p, q) of the stored product: the x block there times the clamp of the row's entry q. -/
theorem pay_apply (ds : Vec F S1x8192 .f32) (xs : Vec F S384x8192 .f32) (p : Fin 384) (q : Fin 8192) :
    k0_pay1 ds xs (ix2 p q) = FloatOps.mulf (xs (ix2 p q)) (clamp (ds (ix2 (0 : Fin 1) q))) := by
  unfold k0_pay1
  show FloatOps.mulf (xs (ix2 p q)) (broadcastTo S384x8192 (minimumf (broadcast S1x8192 (Scalar.ofBits .f32 0x3F733333#32))
    (maximumf (broadcast S1x8192 (Scalar.ofBits .f32 0xBF733333#32)) (shapeCast S1x8192 ds shapeCasts_S1x8192_S1x8192)))
    broadcasts_S1x8192_S384x8192 (ix2 p q)) = _
  rw [broadcastTo_apply _ broadcasts_S1x8192_S384x8192 (ix2 p q) (ix2 (0 : Fin 1) q) (fun a => match a with
    | ⟨0, _⟩ => by show (0 : Nat) = if (1 : Nat) = 1 then 0 else p.val; rw [if_pos rfl]
    | ⟨1, _⟩ => by show q.val = if (8192 : Nat) = 1 then 0 else q.val; rw [if_neg (by decide)]),
    shapeCast_self]
  rfl

end Cert.Kernel.Payload

end
-- ==== Proof.KernelBlocks.lean ====
/-
  What one grid point writes back. Point t handles rows 384·t … 384·t + 383 of the array, cut off at row 16384
  (the last point keeps 256 rows). Its x block is x on those rows; its diagonal block is always the whole
  diagonal, laid out as one row by a reshape before the kernel starts. The staging buffer of x may hold
  anything on the rows past the array's end; the product is taken entry by entry, so on the rows inside the
  array the stored block is the scaled array's block, whatever the other rows hold.
-/
import proofs.«423454_j73581379715571_3_alg».proof.Proof.Gen.Kernel.Frame
import proofs.«423454_j73581379715571_3_alg».proof.Proof.KernelPayload

set_option maxRecDepth 16384

noncomputable section

namespace Cert.Kernel.Blocks

open Cert.Kernel Cert.Kernel.Gen Cert.Kernel.Payload
open Idealize.ShloMosaic Idealize.ShloMosaic.TcCoe Idealize.ShloMosaic.ValueIdx Idealize.SL.Sem Cert.DiagScale
open Idealize.ShloMosaic.Pipeline (Dat Cfg Window)

variable {F : FTy → Type} [FloatOps F]

variable (m : (ℓ : Loc nD τ sig) → Buf (Elt F) ℓ)

/-- The scaled array of the two argument arrays as launched. -/
abbrev target (c : Dev nD) : S16384x8192.Idx → Elt F .f32 :=
  scaled (m ((c : Thread nD τ).loc main_arg0)) (m ((c : Thread nD τ).loc main_arg1))

/-- The printed index maps over the grid: x's and the result's blocks move together down the rows and stay
    in column block 0; the diagonal's block never moves. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- The one-row array the kernel reads the diagonal from is the diagonal reshaped. -/
theorem row_array (c : Dev nD) :
    (V m c main_v0 : S1x8192.Idx → Elt F .f32) = shapeCast S1x8192 (m ((c : Thread nD τ).loc main_arg1)) shapeCasts_S8192_S1x8192 := by
  dsimp only [Gen.V, Gen.hostOps0]; after_results; rfl

/-- Its entry (0, q) is the diagonal's entry q. -/
theorem row_array_apply (c : Dev nD) (q : Fin 8192) :
    V m c main_v0 (ix2 (0 : Fin 1) q) = m ((c : Thread nD τ).loc main_arg1) (dgIdx q) := by
  rw [row_array]
  refine shapeCast_apply _ _ _ _ ?_
  show ((⟨1, ![8192]⟩ : Shape).rowMajor (dgIdx q)).val = ((⟨2, ![1, 8192]⟩ : Shape).rowMajor (ix2 (0 : Fin 1) q)).val
  rw [Shape.rowMajor_val_one, Shape.rowMajor_val_two]
  show q.val = 0 * 8192 + q.val
  omega

/-- The diagonal's block at any point is the whole one-row array: its entry (0, q) is the diagonal's entry q. -/
theorem row_block (c : Dev nD) (t : Fin cfg0.N) (q : Fin 8192) :
    iblk m c 1 t (ix2 (0 : Fin 1) q) = m ((c : Thread nD τ).loc main_arg1) (dgIdx q) := by
  obtain ⟨-, -, -, e0, e1⟩ := idx_facts t
  have he : ((cfg0.win 1).blk t).view.emb (ix2 (0 : Fin 1) q) = ix2 (0 : Fin 1) q := by
    funext a; apply Fin.ext
    match a with
    | ⟨0, _⟩ => show win0_1.index t (0 : Fin 2) * 1 + 1 * 0 = 0; omega
    | ⟨1, _⟩ => show win0_1.index t (1 : Fin 2) * 8192 + 1 * q.val = q.val; omega
  show V m c main_v0 (((cfg0.win 1).blk t).view.emb (ix2 (0 : Fin 1) q)) = _
  rw [he]
  exact row_array_apply m c q

/-- x's block at point t is x read at the block's place in the array. -/
theorem x_block (c : Dev nD) (t : Fin cfg0.N) (j : ((cfg0.win 0).xblock (cfg0.grid.coords t)).Idx) :
    iblk m c 0 t j = m ((c : Thread nD τ).loc main_arg0) (((cfg0.win 0).blk t).view.emb j) :=
  congrFun (V_main_arg0 m c) _

set_option maxHeartbeats 2000000 in
/-- ON THE ROWS INSIDE THE ARRAY the stored block is the scaled array's block at point t: whatever `d0` the x
    staging buffer holds on the rows past the array's end. -/
theorem stored_cut (c : Dev nD) (t : Fin cfg0.N) (d0 : S384x8192.Idx → Elt F .f32) :
    (cfg0.win 2).cut (cfg0.grid.coords t) (k0_pay1 (iblk m c 1 t) ((cfg0.win 0).fill (cfg0.grid.coords t) d0 (iblk m c 0 t)))
      = ((cfg0.win 2).blk t).view.read (Elt F) (target m c) := by
  obtain ⟨e0, e1, e2, -, -⟩ := idx_facts t
  funext j
  have hj0 : (j 0).val < 384 := Nat.lt_of_lt_of_le (j 0).isLt ((cfg0.win 2).xsize_le (cfg0.grid.coords t) 0)
  have hj1 : (j 1).val < 8192 := Nat.lt_of_lt_of_le (j 1).isLt ((cfg0.win 2).xsize_le (cfg0.grid.coords t) 1)
  have hx : (cfg0.win 2).xinj (cfg0.grid.coords t) j = ix2 (⟨(j 0).val, hj0⟩ : Fin 384) (⟨(j 1).val, hj1⟩ : Fin 8192) := by
    funext a
    match a with
    | ⟨0, _⟩ => rfl
    | ⟨1, _⟩ => rfl
  show k0_pay1 (iblk m c 1 t) ((cfg0.win 0).fill (cfg0.grid.coords t) d0 (iblk m c 0 t)) ((cfg0.win 2).xinj (cfg0.grid.coords t) j)
    = target m c (((cfg0.win 2).blk t).view.emb j)
  rw [hx, pay_apply, row_block, ← hx]
  have hf : (cfg0.win 0).fill (cfg0.grid.coords t) d0 (iblk m c 0 t) ((cfg0.win 2).xinj (cfg0.grid.coords t) j) = iblk m c 0 t j :=
    (cfg0.win 0).fill_xinj _ d0 _ j
  have h0 : ((cfg0.win 0).blk t).view.emb j = ((cfg0.win 2).blk t).view.emb j := by
    funext a; apply Fin.ext
    match a with
    | ⟨0, _⟩ => show win0_0.index t (0 : Fin 2) * 384 + 1 * (j 0).val = win0_2.index t (0 : Fin 2) * 384 + 1 * (j 0).val; omega
    | ⟨1, _⟩ => show win0_0.index t (1 : Fin 2) * 8192 + 1 * (j 1).val = win0_2.index t (1 : Fin 2) * 8192 + 1 * (j 1).val; omega
  have hc : colOf (((cfg0.win 2).blk t).view.emb j) = dgIdx ⟨(j 1).val, hj1⟩ := by
    funext a; apply Fin.ext
    match a with
    | ⟨0, _⟩ => show win0_2.index t (1 : Fin 2) * 8192 + 1 * (j 1).val = (j 1).val; omega
  rw [hf]
  refine Eq.trans (congrArg (fun v => FloatOps.mulf v _) ((x_block m c t j).trans (congrArg _ h0))) ?_
  rw [← hc]
  rfl

end Cert.Kernel.Blocks

end
-- ==== Proof.KernelBody.lean ====
/-
  The kernel's run, for any reading of the floats. At each of the 43 grid points the body finds x's staging
  buffer just fetched (x's rows of that point on the rows inside the array, anything on the rows past its end),
  the diagonal's buffer holding the whole diagonal as one row (fetched once, at the first point, and left in
  place), and the result's buffer holding anything. It loads the first two whole, clamps the row, multiplies,
  and stores the product over the whole result buffer. What it leaves in the result buffer is, on the rows
  inside the array, the scaled array's rows of that point; the write-back moves exactly those rows. Nothing
  is said of the other rows: x's window and the result's are described on the moved rows only.
-/
import proofs.«423454_j73581379715571_3_alg».proof.Proof.KernelBlocks
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen Cert.Kernel.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's accesses all start at row 0, column 0 of their buffers. -/
theorem origin : (![0, 0] : Fin 2 → Nat) = fun _ => 0 := funext fun a => by fin_cases a <;> rfl

/-! ## The body on three whole buffers -/

set_option maxHeartbeats 1000000 in
/-- On whole staging buffers holding `xs`, `ds` and anything, the body ends with the first two as they were and the
    third holding the product of `xs` with the clamped row `ds` repeated down the rows: two whole loads, a load
    of the result buffer whose value is not used, and one store over the whole result buffer. -/
theorem sound_kernel (c : Dev nD) (E : Set ℕ) (i : grid0.Coords) (arg1 : Memref sig .tc .vmem S384x8192 .f32) (harg1 : arg1.IsWhole) (arg2 : Memref sig .tc .vmem S1x8192 .f32) (harg2 : arg2.IsWhole) (arg3 : Memref sig .tc .vmem S384x8192 .f32) (harg3 : arg3.IsWhole)
    (xs : Vec F S384x8192 .f32) (ds : Vec F S1x8192 .f32) (K : PUnit → sProp 𝕄) :
    iprop(owns (c : Thread nD τ) arg1 fullShare xs ∗ owns (c : Thread nD τ) arg2 fullShare ds ∗ (∃ d, owns (c : Thread nD τ) arg3 fullShare d)
        ∗ (iprop(owns (c : Thread nD τ) arg1 fullShare xs ∗ owns (c : Thread nD τ) arg2 fullShare ds ∗ owns (c : Thread nD τ) arg3 fullShare (k0_pay1 ds xs)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads back the stored value; a load of a whole buffer reads its contents
  rw [View.read_writes_eq_canon _ _ _ (fun y => ⟨_, List.mem_singleton_self _, View.mem_set_unit_zero origin inb_S384x8192_S384x8192_0_0 y⟩),
    View.canon_unit_zero origin]
  simp only [View.readAt_eq_ld, View.ld_unit_zero (S := S1x8192) origin, View.ld_unit_zero (S := S384x8192) origin]

/-! ## What each staging buffer holds after the body, point by point -/

/-- The arrays as the kernel's launch finds them; after the body at point `t`: x's buffer at x's rows of the point
    (zero on the rows past the array's end — a choice nothing reads), the diagonal's at the whole diagonal row, the
    result's at the scaled array's rows of the point (zero past the end, likewise); the invariant is the one of a
    body with no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => FloatOps.ofBits .f32 0#32) (iblk m c 0 t)
    | ⟨1, _⟩ => iblk m c 1 t
    | ⟨2, _⟩ => (cfg0.win 2).fill (cfg0.grid.coords t) (fun _ => FloatOps.ofBits .f32 0#32) (((cfg0.win 2).blk t).view.read (Elt F) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) :
    (dats m 0 c).after 0 t = (cfg0.win 0).fill (cfg0.grid.coords t) (fun _ => FloatOps.ofBits .f32 0#32) (iblk m c 0 t) := by
  dsimp only [dats]
theorem after_row (c : Dev nD) (t : Fin cfg0.N) : (dats m 0 c).after 1 t = iblk m c 1 t := by dsimp only [dats]
theorem after_out (c : Dev nD) (t : Fin cfg0.N) :
    (dats m 0 c).after 2 t = (cfg0.win 2).fill (cfg0.grid.coords t) (fun _ => FloatOps.ofBits .f32 0#32) (((cfg0.win 2).blk t).view.read (Elt F) (target m c)) := by
  dsimp only [dats]

/-- x's buffer is fetched at every point: the body finds x's rows of the point, and `d` past the array's end. -/
theorem before_x (c : Dev nD) (t : Fin cfg0.N) (d) :
    (dats m 0 c).before 0 t d = (cfg0.win 0).fill (cfg0.grid.coords t) d (iblk m c 0 t) := by
  unfold Dat.before
  rw [if_pos (fetch0_0 t)]
  unfold Dat.fetched Dat.blockOf iblk
  rw [A_eq]

/-- The diagonal's buffer holds the whole row at every point, fetched there or not. -/
theorem before_row (c : Dev nD) (t : Fin cfg0.N) (d) : (dats m 0 c).before 1 t d = iblk m c 1 t :=
  before0_1_of m (dats m 0 c) (A_eq m c 1) (after_row m c) t d

/-! ## The body at one point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: x's buffer and the result's described on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t)))))

/-- The body at any point. The product it stores agrees with the scaled array's rows on the rows the write-back
    moves (`stored_cut`), and a buffer described only there may hold anything elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_x m c t d0, before_row m c t d1]
  iapply (sound_kernel c Set.univ (grid0.coords t) _ _ _ _ _ _ ((cfg0.win 0).fill (cfg0.grid.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after_x, Window.cut_fill]
    iexact H0
  isplitl [H1]
  · rw [after_row]
    iexact H1
  · iexists k0_pay1 (iblk m c 1 t) ((cfg0.win 0).fill (cfg0.grid.coords t) d0 (iblk m c 0 t))
    rw [after_out, Window.cut_fill, ← stored_cut m c t d0, Window.fill_cut]
    iexact H2

/-- The body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters, every weakly fair execution of the program terminates, the
    three windowed arrays ending at what the write-backs made of them and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Payload.lean ====
/-
  The body's one stored value, read at an entry. The body loads the one-row block of the diagonal and the
  384-row block of x, clamps the row entry by entry, repeats it down the 384 rows and multiplies: entry (p, q)
  of what it stores is the x block's entry (p, q) times the clamped row entry q, whatever p. The value at
  (p, q) depends on the x block at (p, q) alone, so rows of the block that hold no part of the array do not
  reach the rows that do.
-/
import proofs.«423454_j73581379715571_3_alg».proof.Proof.Gen.KernelIdeal.Skeleton
import proofs.«423454_j73581379715571_3_alg».proof.Proof.Scaled
import Idealize.ShloMosaic.Lib.Pipeline.Value

noncomputable section

namespace Cert.KernelIdeal.Payload

open Cert.KernelIdeal Cert.KernelIdeal.Gen Idealize.ShloMosaic Idealize.ShloMosaic.ValueIdx Cert.DiagScale

variable {F : FTy → Type} [FloatOps F]

/-- Entry (p, q) of the stored product: the x block there times the clamp of the row's entry q. -/
theorem pay_apply (ds : Vec F S1x8192 .f32) (xs : Vec F S384x8192 .f32) (p : Fin 384) (q : Fin 8192) :
    k0_pay1 ds xs (ix2 p q) = FloatOps.mulf (xs (ix2 p q)) (clamp (ds (ix2 (0 : Fin 1) q))) := by
  unfold k0_pay1
  show FloatOps.mulf (xs (ix2 p q)) (broadcastTo S384x8192 (minimumf (broadcast S1x8192 (Scalar.ofBits .f32 0x3F733333#32))
    (maximumf (broadcast S1x8192 (Scalar.ofBits .f32 0xBF733333#32)) (shapeCast S1x8192 ds shapeCasts_S1x8192_S1x8192)))
    broadcasts_S1x8192_S384x8192 (ix2 p q)) = _
  rw [broadcastTo_apply _ broadcasts_S1x8192_S384x8192 (ix2 p q) (ix2 (0 : Fin 1) q) (fun a => match a with
    | ⟨0, _⟩ => by show (0 : Nat) = if (1 : Nat) = 1 then 0 else p.val; rw [if_pos rfl]
    | ⟨1, _⟩ => by show q.val = if (8192 : Nat) = 1 then 0 else q.val; rw [if_neg (by decide)]),
    shapeCast_self]
  rfl

end Cert.KernelIdeal.Payload

end
-- ==== Proof.Blocks.lean ====
/-
  What one grid point writes back. Point t handles rows 384·t … 384·t + 383 of the array, cut off at row 16384
  (the last point keeps 256 rows). Its x block is x on those rows; its diagonal block is always the whole
  diagonal, laid out as one row by a reshape before the kernel starts. The staging buffer of x may hold
  anything on the rows past the array's end; the product is taken entry by entry, so on the rows inside the
  array the stored block is the scaled array's block, whatever the other rows hold.
-/
import proofs.«423454_j73581379715571_3_alg».proof.Proof.Gen.KernelIdeal.Frame
import proofs.«423454_j73581379715571_3_alg».proof.Proof.Payload

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.ValueIdx Idealize.SL.Sem Cert.DiagScale
open Idealize.ShloMosaic.Pipeline (Dat Cfg Window)

variable {F : FTy → Type} [FloatOps F]

variable (m : (ℓ : Loc nD τ sig) → Buf (Elt F) ℓ)

/-- The scaled array of the two argument arrays as launched. -/
abbrev target (c : Dev nD) : S16384x8192.Idx → Elt F .f32 :=
  scaled (m ((c : Thread nD τ).loc main_arg0)) (m ((c : Thread nD τ).loc main_arg1))

/-- The printed index maps over the grid: x's and the result's blocks move together down the rows and stay
    in column block 0; the diagonal's block never moves. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- The one-row array the kernel reads the diagonal from is the diagonal reshaped. -/
theorem row_array (c : Dev nD) :
    (V m c main_v0 : S1x8192.Idx → Elt F .f32) = shapeCast S1x8192 (m ((c : Thread nD τ).loc main_arg1)) shapeCasts_S8192_S1x8192 := by
  dsimp only [Gen.V, Gen.hostOps0]; after_results; rfl

/-- Its entry (0, q) is the diagonal's entry q. -/
theorem row_array_apply (c : Dev nD) (q : Fin 8192) :
    V m c main_v0 (ix2 (0 : Fin 1) q) = m ((c : Thread nD τ).loc main_arg1) (dgIdx q) := by
  rw [row_array]
  refine shapeCast_apply _ _ _ _ ?_
  show ((⟨1, ![8192]⟩ : Shape).rowMajor (dgIdx q)).val = ((⟨2, ![1, 8192]⟩ : Shape).rowMajor (ix2 (0 : Fin 1) q)).val
  rw [Shape.rowMajor_val_one, Shape.rowMajor_val_two]
  show q.val = 0 * 8192 + q.val
  omega

/-- The diagonal's block at any point is the whole one-row array: its entry (0, q) is the diagonal's entry q. -/
theorem row_block (c : Dev nD) (t : Fin cfg0.N) (q : Fin 8192) :
    iblk m c 1 t (ix2 (0 : Fin 1) q) = m ((c : Thread nD τ).loc main_arg1) (dgIdx q) := by
  obtain ⟨-, -, -, e0, e1⟩ := idx_facts t
  have he : ((cfg0.win 1).blk t).view.emb (ix2 (0 : Fin 1) q) = ix2 (0 : Fin 1) q := by
    funext a; apply Fin.ext
    match a with
    | ⟨0, _⟩ => show win0_1.index t (0 : Fin 2) * 1 + 1 * 0 = 0; omega
    | ⟨1, _⟩ => show win0_1.index t (1 : Fin 2) * 8192 + 1 * q.val = q.val; omega
  show V m c main_v0 (((cfg0.win 1).blk t).view.emb (ix2 (0 : Fin 1) q)) = _
  rw [he]
  exact row_array_apply m c q

/-- x's block at point t is x read at the block's place in the array. -/
theorem x_block (c : Dev nD) (t : Fin cfg0.N) (j : ((cfg0.win 0).xblock (cfg0.grid.coords t)).Idx) :
    iblk m c 0 t j = m ((c : Thread nD τ).loc main_arg0) (((cfg0.win 0).blk t).view.emb j) :=
  congrFun (V_main_arg0 m c) _

set_option maxHeartbeats 2000000 in
/-- ON THE ROWS INSIDE THE ARRAY the stored block is the scaled array's block at point t: whatever `d0` the x
    staging buffer holds on the rows past the array's end. -/
theorem stored_cut (c : Dev nD) (t : Fin cfg0.N) (d0 : S384x8192.Idx → Elt F .f32) :
    (cfg0.win 2).cut (cfg0.grid.coords t) (k0_pay1 (iblk m c 1 t) ((cfg0.win 0).fill (cfg0.grid.coords t) d0 (iblk m c 0 t)))
      = ((cfg0.win 2).blk t).view.read (Elt F) (target m c) := by
  obtain ⟨e0, e1, e2, -, -⟩ := idx_facts t
  funext j
  have hj0 : (j 0).val < 384 := Nat.lt_of_lt_of_le (j 0).isLt ((cfg0.win 2).xsize_le (cfg0.grid.coords t) 0)
  have hj1 : (j 1).val < 8192 := Nat.lt_of_lt_of_le (j 1).isLt ((cfg0.win 2).xsize_le (cfg0.grid.coords t) 1)
  have hx : (cfg0.win 2).xinj (cfg0.grid.coords t) j = ix2 (⟨(j 0).val, hj0⟩ : Fin 384) (⟨(j 1).val, hj1⟩ : Fin 8192) := by
    funext a
    match a with
    | ⟨0, _⟩ => rfl
    | ⟨1, _⟩ => rfl
  show k0_pay1 (iblk m c 1 t) ((cfg0.win 0).fill (cfg0.grid.coords t) d0 (iblk m c 0 t)) ((cfg0.win 2).xinj (cfg0.grid.coords t) j)
    = target m c (((cfg0.win 2).blk t).view.emb j)
  rw [hx, pay_apply, row_block, ← hx]
  have hf : (cfg0.win 0).fill (cfg0.grid.coords t) d0 (iblk m c 0 t) ((cfg0.win 2).xinj (cfg0.grid.coords t) j) = iblk m c 0 t j :=
    (cfg0.win 0).fill_xinj _ d0 _ j
  have h0 : ((cfg0.win 0).blk t).view.emb j = ((cfg0.win 2).blk t).view.emb j := by
    funext a; apply Fin.ext
    match a with
    | ⟨0, _⟩ => show win0_0.index t (0 : Fin 2) * 384 + 1 * (j 0).val = win0_2.index t (0 : Fin 2) * 384 + 1 * (j 0).val; omega
    | ⟨1, _⟩ => show win0_0.index t (1 : Fin 2) * 8192 + 1 * (j 1).val = win0_2.index t (1 : Fin 2) * 8192 + 1 * (j 1).val; omega
  have hc : colOf (((cfg0.win 2).blk t).view.emb j) = dgIdx ⟨(j 1).val, hj1⟩ := by
    funext a; apply Fin.ext
    match a with
    | ⟨0, _⟩ => show win0_2.index t (1 : Fin 2) * 8192 + 1 * (j 1).val = (j 1).val; omega
  rw [hf]
  refine Eq.trans (congrArg (fun v => FloatOps.mulf v _) ((x_block m c t j).trans (congrArg _ h0))) ?_
  rw [← hc]
  rfl

end Cert.KernelIdeal.Blocks

end
-- ==== Proof.Body.lean ====
/-
  The kernel's run, for any reading of the floats. At each of the 43 grid points the body finds x's staging
  buffer just fetched (x's rows of that point on the rows inside the array, anything on the rows past its end),
  the diagonal's buffer holding the whole diagonal as one row (fetched once, at the first point, and left in
  place), and the result's buffer holding anything. It loads the first two whole, clamps the row, multiplies,
  and stores the product over the whole result buffer. What it leaves in the result buffer is, on the rows
  inside the array, the scaled array's rows of that point; the write-back moves exactly those rows. Nothing
  is said of the other rows: x's window and the result's are described on the moved rows only.
-/
import proofs.«423454_j73581379715571_3_alg».proof.Proof.Blocks
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's accesses all start at row 0, column 0 of their buffers. -/
theorem origin : (![0, 0] : Fin 2 → Nat) = fun _ => 0 := funext fun a => by fin_cases a <;> rfl

/-! ## The body on three whole buffers -/

set_option maxHeartbeats 1000000 in
/-- On whole staging buffers holding `xs`, `ds` and anything, the body ends with the first two as they were and the
    third holding the product of `xs` with the clamped row `ds` repeated down the rows: two whole loads, a load
    of the result buffer whose value is not used, and one store over the whole result buffer. -/
theorem sound_kernel (c : Dev nD) (E : Set ℕ) (i : grid0.Coords) (arg1 : Memref sig .tc .vmem S384x8192 .f32) (harg1 : arg1.IsWhole) (arg2 : Memref sig .tc .vmem S1x8192 .f32) (harg2 : arg2.IsWhole) (arg3 : Memref sig .tc .vmem S384x8192 .f32) (harg3 : arg3.IsWhole)
    (xs : Vec F S384x8192 .f32) (ds : Vec F S1x8192 .f32) (K : PUnit → sProp 𝕄) :
    iprop(owns (c : Thread nD τ) arg1 fullShare xs ∗ owns (c : Thread nD τ) arg2 fullShare ds ∗ (∃ d, owns (c : Thread nD τ) arg3 fullShare d)
        ∗ (iprop(owns (c : Thread nD τ) arg1 fullShare xs ∗ owns (c : Thread nD τ) arg2 fullShare ds ∗ owns (c : Thread nD τ) arg3 fullShare (k0_pay1 ds xs)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads back the stored value; a load of a whole buffer reads its contents
  rw [View.read_writes_eq_canon _ _ _ (fun y => ⟨_, List.mem_singleton_self _, View.mem_set_unit_zero origin inb_S384x8192_S384x8192_0_0 y⟩),
    View.canon_unit_zero origin]
  simp only [View.readAt_eq_ld, View.ld_unit_zero (S := S1x8192) origin, View.ld_unit_zero (S := S384x8192) origin]

/-! ## What each staging buffer holds after the body, point by point -/

/-- The arrays as the kernel's launch finds them; after the body at point `t`: x's buffer at x's rows of the point
    (zero on the rows past the array's end — a choice nothing reads), the diagonal's at the whole diagonal row, the
    result's at the scaled array's rows of the point (zero past the end, likewise); the invariant is the one of a
    body with no scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => FloatOps.ofBits .f32 0#32) (iblk m c 0 t)
    | ⟨1, _⟩ => iblk m c 1 t
    | ⟨2, _⟩ => (cfg0.win 2).fill (cfg0.grid.coords t) (fun _ => FloatOps.ofBits .f32 0#32) (((cfg0.win 2).blk t).view.read (Elt F) (target m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) :
    (dats m 0 c).after 0 t = (cfg0.win 0).fill (cfg0.grid.coords t) (fun _ => FloatOps.ofBits .f32 0#32) (iblk m c 0 t) := by
  dsimp only [dats]
theorem after_row (c : Dev nD) (t : Fin cfg0.N) : (dats m 0 c).after 1 t = iblk m c 1 t := by dsimp only [dats]
theorem after_out (c : Dev nD) (t : Fin cfg0.N) :
    (dats m 0 c).after 2 t = (cfg0.win 2).fill (cfg0.grid.coords t) (fun _ => FloatOps.ofBits .f32 0#32) (((cfg0.win 2).blk t).view.read (Elt F) (target m c)) := by
  dsimp only [dats]

/-- x's buffer is fetched at every point: the body finds x's rows of the point, and `d` past the array's end. -/
theorem before_x (c : Dev nD) (t : Fin cfg0.N) (d) :
    (dats m 0 c).before 0 t d = (cfg0.win 0).fill (cfg0.grid.coords t) d (iblk m c 0 t) := by
  unfold Dat.before
  rw [if_pos (fetch0_0 t)]
  unfold Dat.fetched Dat.blockOf iblk
  rw [A_eq]

/-- The diagonal's buffer holds the whole row at every point, fetched there or not. -/
theorem before_row (c : Dev nD) (t : Fin cfg0.N) (d) : (dats m 0 c).before 1 t d = iblk m c 1 t :=
  before0_1_of m (dats m 0 c) (A_eq m c 1) (after_row m c) t d

/-! ## The body at one point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: x's buffer and the result's described on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t)))))

/-- The body at any point. The product it stores agrees with the scaled array's rows on the rows the write-back
    moves (`stored_cut`), and a buffer described only there may hold anything elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_x m c t d0, before_row m c t d1]
  iapply (sound_kernel c Set.univ (grid0.coords t) _ _ _ _ _ _ ((cfg0.win 0).fill (cfg0.grid.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [after_x, Window.cut_fill]
    iexact H0
  isplitl [H1]
  · rw [after_row]
    iexact H1
  · iexists k0_pay1 (iblk m c 1 t) ((cfg0.win 0).fill (cfg0.grid.coords t) d0 (iblk m c 0 t))
    rw [after_out, Window.cut_fill, ← stored_cut m c t d0, Window.fill_cut]
    iexact H2

/-- The body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters, every weakly fair execution of the program terminates, the
    three windowed arrays ending at what the write-backs made of them and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Final.lean ====
/-
  The result array after the run. Each of the 43 points writes back, onto its rows of the array, the scaled
  array's rows (the last point 256 rows, the others 384). Row r lies in the block of point r / 384, so the
  blocks cover all 16384 rows and every column, and the result array ends holding the scaled array.
-/
import proofs.«423454_j73581379715571_3_alg».proof.Proof.Body
import Idealize.ShloMosaic.Lib.Pipeline.Value

set_option maxRecDepth 16384

noncomputable section

namespace Cert.KernelIdeal.Final

open Cert.KernelIdeal Cert.KernelIdeal.Gen Cert.KernelIdeal.Blocks Cert.KernelIdeal.Body
open Idealize.ShloMosaic Idealize.ShloMosaic.TcCoe Idealize.SL.Sem Cert.DiagScale
open Idealize.ShloMosaic.Pipeline (Dat Cfg Window)

variable {F : FTy → Type} [FloatOps F]

variable (m : (ℓ : Loc nD τ sig) → Buf (Elt F) ℓ) (ρ : Dev nD → PrngReg)

/-- What point `t` writes back is the scaled array's block at `t`. -/
theorem flushed_eq (c : Dev nD) (t : Fin cfg0.N) :
    (dats m 0 c).flushed 2 t = ((cfg0.win 2).blk t).view.read (Elt F) (target m c) := by
  show (cfg0.win 2).cut (cfg0.grid.coords t) ((dats m 0 c).after 2 t) = _
  rw [after_out, Window.cut_fill]

/-- The result's blocks over the grid: point t starts at row 384·t, column 0, spans all 8192 columns, and has
    384 rows, but for the last point, which has the 256 rows left. -/
theorem out_facts : ∀ t : Fin cfg0.N, win0_2.index t (0 : Fin 2) = t.val ∧ win0_2.index t (1 : Fin 2) = 0
    ∧ win0_2.xsize (grid0.coords t) (1 : Fin 2) = 8192
    ∧ (t.val < 42 → win0_2.xsize (grid0.coords t) (0 : Fin 2) = 384)
    ∧ (t.val = 42 → win0_2.xsize (grid0.coords t) (0 : Fin 2) = 256) :=
  (by decide +kernel : ∀ t : Fin grid0.N, _)

/-- An index of the array is in point `t`'s block iff each coordinate is in the block's range on its axis. -/
theorem mem_blk (t : Fin cfg0.N) (i : S16384x8192.Idx) :
    i ∈ ((cfg0.win 2).blk t).view.set ↔ ∀ a : Fin 2, win0_2.index t a * S384x8192.size a ≤ (i a).val
      ∧ (i a).val < win0_2.index t a * S384x8192.size a + win0_2.xsize (grid0.coords t) a := by
  show i ∈ ((View.whole main_v1).slice (win0_2.rect t)).set ↔ _
  rw [View.set_slice_whole, Rect.mem_set_unit]
  exact Iff.rfl

/-- Every index of the array is in some point's block: row r in the block of point r / 384. -/
theorem covered (i : S16384x8192.Idx) :
    ∃ t : Fin cfg0.N, (cfg0.win 2).flush t = true ∧ i ∈ ((cfg0.win 2).blk t).view.set := by
  have hr : (i 0).val < 16384 := (i 0).isLt
  have hk : (i 1).val < 8192 := (i 1).isLt
  have ht : (i 0).val / 384 < cfg0.N := by rw [show cfg0.N = 43 from N_0]; omega
  obtain ⟨f0, f1, f2, f3, f4⟩ := out_facts ⟨(i 0).val / 384, ht⟩
  have g0 : win0_2.index ⟨(i 0).val / 384, ht⟩ (0 : Fin 2) = (i 0).val / 384 := f0
  have g3 : (i 0).val / 384 < 42 → win0_2.xsize (grid0.coords ⟨(i 0).val / 384, ht⟩) (0 : Fin 2) = 384 := f3
  have g4 : (i 0).val / 384 = 42 → win0_2.xsize (grid0.coords ⟨(i 0).val / 384, ht⟩) (0 : Fin 2) = 256 := f4
  refine ⟨⟨(i 0).val / 384, ht⟩, flush0_2 _, ?_⟩
  rw [mem_blk]
  intro a
  match a with
  | ⟨0, _⟩ =>
    show win0_2.index ⟨(i 0).val / 384, ht⟩ (0 : Fin 2) * 384 ≤ (i 0).val
      ∧ (i 0).val < win0_2.index ⟨(i 0).val / 384, ht⟩ (0 : Fin 2) * 384 + win0_2.xsize (grid0.coords ⟨(i 0).val / 384, ht⟩) (0 : Fin 2)
    rw [g0]
    rcases Nat.lt_or_ge ((i 0).val / 384) 42 with h | h
    · rw [g3 h]; omega
    · rw [g4 (by omega)]; omega
  | ⟨1, _⟩ =>
    show win0_2.index ⟨(i 0).val / 384, ht⟩ (1 : Fin 2) * 8192 ≤ (i 1).val
      ∧ (i 1).val < win0_2.index ⟨(i 0).val / 384, ht⟩ (1 : Fin 2) * 8192 + win0_2.xsize (grid0.coords ⟨(i 0).val / 384, ht⟩) (1 : Fin 2)
    rw [f1, f2]; omega

/-- The result array ends holding the scaled array of the two argument arrays. -/
theorem final (c : Dev nD) : (dats m 0 c).arrAt 2 cfg0.N = target m c :=
  (dats m 0 c).arrAt_eq_of_cover 2 (target m c) (fun t _ => flushed_eq m c t) covered

/-- The run, read: the result array at the scaled array, the two argument arrays as they were. -/
theorem run : θ_run defs (onTc (τ := τ) (main (F := F))) ⟨m, fun _ => 0, ρ⟩ fun r => ∀ c : Dev nD,
      r.2.mem ((c.tc : Thread nD τ).loc main_v1) = target m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Final

end
-- ==== Proof.RefValue.lean ====
/-
  The reference's result is the scaled array. Read one operation at a time, entry (r, k) of the reference's
  last stage is x(r, k) times min(hi, max(lo, d(k))): the two scalar constants are broadcast to the diagonal's
  length, the clamped diagonal is broadcast first to one row and then down the 16384 rows, so the factor at
  (r, k) is the clamped entry at column k whatever the row, and the product is taken entry by entry.
-/
import proofs.«423454_j73581379715571_3_alg».proof.Proof.Gen.ReferenceIdeal.Run
import proofs.«423454_j73581379715571_3_alg».proof.Proof.Gen.ReferenceIdeal.Read
import proofs.«423454_j73581379715571_3_alg».proof.Proof.Scaled

noncomputable section

namespace Cert.ReferenceIdeal.RefValue

open Cert.ReferenceIdeal Cert.ReferenceIdeal.Read Idealize.ShloMosaic Cert.DiagScale

variable {F : FTy → Type} [FloatOps F]

/-- The two broadcasts composed send the array index (r, k) to the diagonal index k. -/
theorem col_eq (i : S16384x8192.Idx) : idx_main_v1 (idx_main_v2 i) = colOf i := by
  funext a
  match a with
  | ⟨0, _⟩ => rfl

/-- The reference's last stage, as a function of the two argument arrays, is `scaled`. -/
theorem stage_eq_scaled (x0 : S16384x8192.Idx → Elt F .f32) (x1 : S8192.Idx → Elt F .f32) :
    val_main_v3 (F := F) x0 x1 = scaled x0 x1 := by
  funext i
  rw [val_main_v3_apply, val_main_v2_apply, val_main_v1_apply, val_main_v0_apply, val_main_call0_v4_apply,
    val_main_call0_v3_apply, val_main_cst_0_apply, val_main_call0_v2_apply, val_main_call0_v1_apply,
    val_main_call0_v0_apply, val_main_cst_apply, col_eq]
  rfl

end Cert.ReferenceIdeal.RefValue

end
-- ==== Proof.lean ====
/-
  The kernel multiplies x, 16384 rows of 8192 entries, entry by entry with the diagonal clamped to [lo, hi] and
  repeated down the rows; it works in 43 blocks of 384 rows, the last of which has only 256 rows inside the
  array. The reference clamps the diagonal, repeats it down all 16384 rows and multiplies once. Both apply the
  same scalar operations, min(hi, max(lo, ·)) and then a product, to the same entries, so over the extended
  reals the two results are equal entry by entry with no algebraic law and no use of finiteness: the
  function `scaled` is both. The rows of the last block past the array's end never reach the array, because
  the product is taken entry by entry and the write-back moves only the rows inside the array.
  The idealized kernel's text is the word-level kernel's own, so nothing is owed for the idealization.
-/
import proofs.«423454_j73581379715571_3_alg».proof.Defs
import proofs.«423454_j73581379715571_3_alg».proof.Proof.Gen.Kernel
import proofs.«423454_j73581379715571_3_alg».proof.Proof.Gen.KernelIdeal
import proofs.«423454_j73581379715571_3_alg».proof.Proof.Gen.ReferenceIdeal
import proofs.«423454_j73581379715571_3_alg».proof.Proof.Gen.Pre_finite_inputs
import proofs.«423454_j73581379715571_3_alg».proof.Proof.KernelBody
import proofs.«423454_j73581379715571_3_alg».proof.Proof.Final
import proofs.«423454_j73581379715571_3_alg».proof.Proof.RefValue
import Idealize.ShloMosaic.Adequacy
import Idealize.ShloMosaic.Init

noncomputable section

namespace Cert.Proof

open Idealize.ShloMosaic Idealize.SL.Sem

/-- The word-level kernel runs to the end and leaves x and the diagonal as they were. -/
theorem frame_kernel : Cert.frame_Kernel := fun m ρ _ => Cert.Kernel.Body.frame m ρ

/-- So does the idealized kernel. -/
theorem frame_kernel_ideal : Cert.frame_KernelIdeal := fun m ρ _ => Cert.KernelIdeal.Body.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the idealization. -/
theorem preserves : Cert.preserves_Kernel_KernelIdeal := trivial

/-- Over the extended reals both programs end with the scaled array of the arguments they agree on. -/
theorem algebraic : Cert.algebraic_KernelIdeal_ReferenceIdeal := by
  intro m ρ m' ρ' _ hagree
  refine ⟨fun c => Cert.KernelIdeal.Blocks.target m c, Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.stage_eq_scaled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
